-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x1024 .f32) (main_arg1 : FVec F S4096x1024 .f32) (main_arg2 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1024x1024 : Shape := ⟨2, ![1024, 1024]⟩
abbrev S512x1024 : Shape := ⟨2, ![512, 1024]⟩
abbrev S512 : Shape := ⟨1, ![512]⟩
abbrev S1024x512 : Shape := ⟨2, ![1024, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Tile.lean ====
/-
  What the kernel body computes on one tile, read at an entry. The body loads a [1024, 1024] block of x, a
  [512, 1024] block of W and a [512] block of b, changes the two matrix blocks to bf16 (the identity on extended
  reals), multiplies them on the matrix unit into a zero accumulator contracting the LAST axis of both, adds the bias
  block laid as one row under every row, and applies tanh. So entry (p, q) of the [1024, 512] result is
      tanh ( Σ_k xblk[p, k] · Wblk[q, k]  +  bblk[q] ).
-/
import proofs.«114087_j57492432224774_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The matrix product's operand indices

The dimension numbers keep axis 0 of each operand and contract axis 1 of each: at output entry i and contraction
index q the left operand is read at (i 0, q) and the right at (i 1, q). -/

theorem lhs_axis0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_axis1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_axis0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_axis1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The tile's matrix product into a zero accumulator, at entry i: the inner product of row (i 0) of the left block
    with row (i 1) of the right block, the contraction index running over Fin 1024. -/
theorem product_apply (l : FVec Ideal S1024x1024 .bf16) (r : FVec Ideal S512x1024 .bf16) (i : S1024x512.Idx) :
    matmul dot_S1024x1024_S512x1024_S1024x512_1_1_0_0_n_n none l r (constant S1024x512 .f32 0x00000000#32) i
      = ∑ k : Fin 1024, l (ix2 (i 0) k) * r (ix2 (i 1) k) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx i ((contrEquiv1 dot_S1024x1024_S512x1024_S1024x512_1_1_0_0_n_n 1024 rfl rfl).symm k) = ix2 (i 0) k := funext fun a => Fin.ext (by
    match a with
    | ⟨0, _⟩ => exact lhs_axis0 _ _
    | ⟨1, _⟩ => exact (lhs_axis1 _ _).trans hk)
  have er : dot_S1024x1024_S512x1024_S1024x512_1_1_0_0_n_n.rhsIdx i ((contrEquiv1 dot_S1024x1024_S512x1024_S1024x512_1_1_0_0_n_n 1024 rfl rfl).symm k) = ix2 (i 1) k := funext fun a => Fin.ext (by
    match a with
    | ⟨0, _⟩ => exact rhs_axis0 _ _
    | ⟨1, _⟩ => exact (rhs_axis1 _ _).trans hk)
  rw [el, er]
  rfl

/-- The bias block cast to one row and broadcast over the 1024 rows reads, at (p, q), the block's entry q. -/
theorem bias_apply (v : FVec Ideal S512 .f32) (p : Fin 1024) (q : Fin 512) :
    broadcastTo S1024x512 (shapeCast S1x512 v shapeCasts_S512_S1x512) broadcasts_S1x512_S1024x512 (ix2 p q) = v (ix1 q) := by
  rw [broadcastTo_1b_ab_apply, shapeCast_a_1a_apply]

/-- THE TILE: entry (p, q) of the body's stored value, from its three loaded blocks. -/
theorem pay_apply (x0 : Vec Ideal S1024x1024 .f32) (x1 : Vec Ideal S512x1024 .f32) (x2 : Vec Ideal S512 .f32) (p : Fin 1024) (q : Fin 512) :
    k0_pay1 (F := Ideal) x0 x1 x2 (ix2 p q) = Ideal.tanh ((∑ k : Fin 1024, x0 (ix2 p k) * x1 (ix2 q k)) + x2 (ix1 q)) := by
  unfold k0_pay1
  show Ideal.tanh (matmul (F := Ideal) dot_S1024x1024_S512x1024_S1024x512_1_1_0_0_n_n none (truncf (F := Ideal) .bf16 x0 bitsLt_bf16_f32) (truncf (F := Ideal) .bf16 x1 bitsLt_bf16_f32) (constant (F := Ideal) S1024x512 .f32 0x00000000#32) (ix2 p q)
      + broadcastTo S1024x512 (shapeCast S1x512 x2 shapeCasts_S512_S1x512) broadcasts_S1x512_S1024x512 (ix2 p q)) = _
  rw [product_apply, bias_apply]
  rfl

end Cert.KernelIdeal.Tile

end
-- ==== Proof.Layer.lean ====
/-
  The function both programs compute, over the extended reals: one dense layer with a tanh activation,
      out[r, n] = tanh ( Σ_k x[r, k] · W[n, k]  +  b[n] ),      r < 8192, n < 4096, k < 1024,
  that is tanh (x · Wᵀ + b) with the bias added along each row. Entry (r, n) depends on row r of x, row n of W and
  entry n of b only. No law of the extended reals beyond reading a sum index by index is needed to compare the
  two programs with it: neither side regroups or distributes anything.
-/
import Idealize.ShloMosaic.PureOps.Ideal
import Idealize.ShloMosaic.Lib.ValueIdx

noncomputable section

namespace Cert.Layer

open Idealize.ShloMosaic Idealize.ShloMosaic.ValueIdx

/-- tanh (x · Wᵀ + b) at entry i = (r, n): the inner product of row r of x with row n of W, plus b n, through tanh. -/
def dense (x : (⟨2, ![8192, 1024]⟩ : Shape).Idx → EReal) (W : (⟨2, ![4096, 1024]⟩ : Shape).Idx → EReal)
    (b : (⟨1, ![4096]⟩ : Shape).Idx → EReal) : (⟨2, ![8192, 4096]⟩ : Shape).Idx → EReal :=
  fun i => Ideal.tanh ((∑ k : Fin 1024, x (ix2 (i 0) k) * W (ix2 (i 1) k)) + b (ix1 (i 1)))

/-- The same entry with its two coordinates named. -/
theorem dense_ix2 (x : (⟨2, ![8192, 1024]⟩ : Shape).Idx → EReal) (W : (⟨2, ![4096, 1024]⟩ : Shape).Idx → EReal)
    (b : (⟨1, ![4096]⟩ : Shape).Idx → EReal) (r : Fin 8192) (n : Fin 4096) :
    dense x W b (ix2 r n) = Ideal.tanh ((∑ k : Fin 1024, x (ix2 r k) * W (ix2 n k)) + b (ix1 n)) := rfl

end Cert.Layer

end
-- ==== Proof.Array.lean ====
/-
  From tiles to the whole result. The grid is 8 × 8, point t = (i, j): it reads rows [1024·i, 1024·i + 1024) of x
  (all 1024 columns), rows [512·j, 512·j + 512) of W, entries [512·j, 512·j + 512) of b, and writes the
  [1024, 512] tile of the result at block (i, j). Entry (p, q) of that tile is the dense layer's entry
  (1024·i + p, 512·j + q), because the layer's entry (r, n) reads only row r of x, row n of W and b n. The 64 tiles
  cover the [8192, 4096] result (entry (r, n) lies in tile (r / 1024, n / 512)), so the result array ends holding the
  dense layer of the three argument arrays.
-/
import proofs.«114087_j57492432224774_1_alg».proof.Proof.Gen.KernelIdeal.Value
import proofs.«114087_j57492432224774_1_alg».proof.Proof.Tile
import proofs.«114087_j57492432224774_1_alg».proof.Proof.Layer

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## One tile against the whole arrays -/

/-- A tile whose three loaded blocks are the slices of whole arrays X, W, B at row block `bi` of X and block `bj`
    of W and B holds, at its entry j, the dense layer of X, W, B at the entry i that j is the offset of. -/
theorem tile_eq_dense (X : (⟨2, ![8192, 1024]⟩ : Shape).Idx → EReal) (W : (⟨2, ![4096, 1024]⟩ : Shape).Idx → EReal)
    (B : (⟨1, ![4096]⟩ : Shape).Idx → EReal)
    (x0 : Vec Ideal S1024x1024 .f32) (x1 : Vec Ideal S512x1024 .f32) (x2 : Vec Ideal S512 .f32)
    (bi bj : Nat) (hbi : bi ≤ 7) (hbj : bj ≤ 7)
    (h0 : ∀ (p : Fin 1024) (k : Fin 1024), x0 (ix2 p k) = X (ix2 ⟨bi * 1024 + p.val, by have := p.isLt; omega⟩ k))
    (h1 : ∀ (q : Fin 512) (k : Fin 1024), x1 (ix2 q k) = W (ix2 ⟨bj * 512 + q.val, by have := q.isLt; omega⟩ k))
    (h2 : ∀ q : Fin 512, x2 (ix1 q) = B (ix1 ⟨bj * 512 + q.val, by have := q.isLt; omega⟩))
    (j : S1024x512.Idx) (i : S8192x4096.Idx)
    (hi0 : (i 0).val = bi * 1024 + (j 0).val) (hi1 : (i 1).val = bj * 512 + (j 1).val) :
    k0_pay1 (F := Ideal) x0 x1 x2 j = Cert.Layer.dense X W B i := by
  obtain ⟨p, q, rfl⟩ : ∃ (p : Fin 1024) (q : Fin 512), j = ix2 p q := ⟨j 0, j 1, eq_ix2 j⟩
  obtain ⟨r, n, rfl⟩ : ∃ (r : Fin 8192) (n : Fin 4096), i = ix2 r n := ⟨i 0, i 1, eq_ix2 i⟩
  have hr : r = ⟨bi * 1024 + p.val, by have := p.isLt; omega⟩ := Fin.ext hi0
  have hn : n = ⟨bj * 512 + q.val, by have := q.isLt; omega⟩ := Fin.ext hi1
  rw [Tile.pay_apply, Cert.Layer.dense_ix2, h2 q, ← hn]
  refine congrArg Ideal.tanh (congrArg (· + B (ix1 n)) (Finset.sum_congr rfl fun k _ => ?_))
  rw [h0 p k, h1 q k, ← hr, ← hn]

/-! ## The index maps over the grid -/

theorem zero_off2 : (![0, 0] : Fin 2 → Nat) = fun _ => 0 := funext fun a => by fin_cases a <;> rfl
theorem zero_off1 : (![0] : Fin 1 → Nat) = fun _ => 0 := funext fun a => by fin_cases a <;> rfl

/-- Decided over the 64 points: x's block row is the output's block row and its block column 0; W's block row is the
    output's block column and its block column 0; b's block is the output's block column; both output block
    coordinates are below 8. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 1) = win0_3.index t (1 : Fin 2)
    ∧ win0_3.index t (0 : Fin 2) ≤ 7 ∧ win0_3.index t (1 : Fin 2) ≤ 7 :=
  (by decide +kernel : ∀ t : Fin grid0.N, _)

/-- Every block (a, b) of the 8 × 8 tiling of the result is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

variable (m : (ℓ : Loc nD τ sig) → Buf (Elt Ideal) ℓ) (ρ : Dev nD → PrngReg)

/-! ## What a point writes back, the cover, the final array -/

/-- WHAT POINT t WRITES BACK is block t of the dense layer of the argument arrays as the region finds them. -/
theorem flushed_eq (c : Dev nD) (t : Fin cfg0.N) :
    (dats m 0 c).flushed 3 t = ((cfg0.win 3).blk t).view.read (Elt Ideal)
      (Cert.Layer.dense (V m c main_arg0) (V m c main_arg1) (V m c main_arg2)) := by
  rw [Value.flushed3]
  unfold out0_3
  rw [View.canon_unit_zero zero_off2]
  simp only [View.ld_unit_zero (S := S1024x1024) zero_off2, View.ld_unit_zero (S := S512x1024) zero_off2, View.ld_unit_zero (S := S512) zero_off1]
  obtain ⟨e0, e1, e2, e3, e4, e5, e6⟩ := idx_facts t
  funext j
  show k0_pay1 (F := Ideal) (iblk m c 0 t) (iblk m c 1 t) (iblk m c 2 t) j
    = Cert.Layer.dense (V m c main_arg0) (V m c main_arg1) (V m c main_arg2) (((cfg0.win 3).blk t).view.emb j)
  refine tile_eq_dense (V m c main_arg0) (V m c main_arg1) (V m c main_arg2) (iblk m c 0 t) (iblk m c 1 t) (iblk m c 2 t)
    (win0_3.index t (0 : Fin 2)) (win0_3.index t (1 : Fin 2)) e5 e6 ?_ ?_ ?_ j (((cfg0.win 3).blk t).view.emb j) ?_ ?_
  · intro p k
    show V m c main_arg0 (((cfg0.win 0).blk t).view.emb (ix2 p k)) = _
    refine congrArg (V m c main_arg0) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 1024 + 1 * k.val = k.val; omega
  · intro q k
    show V m c main_arg1 (((cfg0.win 1).blk t).view.emb (ix2 q k)) = _
    refine congrArg (V m c main_arg1) (funext fun a => Fin.ext ?_)
    match a with
    | ⟨0, _⟩ => show win0_1.index t (0 : Fin 2) * 512 + 1 * q.val = win0_3.index t (1 : Fin 2) * 512 + q.val; omega
    | ⟨1, _⟩ => show win0_1.index t (1 : Fin 2) * 1024 + 1 * k.val = k.val; omega
  · intro q
    show V m c main_arg2 (((cfg0.win 2).blk t).view.emb (ix1 q)) = _
    refine congrArg (V m c main_arg2) (funext fun a => Fin.ext ?_)
    match a with
    | ⟨0, _⟩ => show win0_2.index t (0 : Fin 1) * 512 + 1 * q.val = win0_3.index t (1 : Fin 2) * 512 + q.val; omega
  · show win0_3.index t (0 : Fin 2) * 1024 + 1 * (j 0).val = win0_3.index t (0 : Fin 2) * 1024 + (j 0).val; omega
  · show win0_3.index t (1 : Fin 2) * 512 + 1 * (j 1).val = win0_3.index t (1 : Fin 2) * 512 + (j 1).val; omega

/-- An entry of the result is in point t's tile iff each coordinate is in the tile's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

/-- The tiles cover the result: entry (r, n) is in the tile of the point with block (r / 1024, n / 512). -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE RESULT ARRAY after the run is the dense layer of the three argument arrays as launched. -/
theorem final (c : Dev nD) : (dats m 0 c).arrAt 3 cfg0.N
    = Cert.Layer.dense (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run with its result named: the dense layer of the arguments, which end unchanged. -/
theorem run : θ_run defs (onTc (τ := τ) (main (F := Ideal))) ⟨m, fun _ => 0, ρ⟩ fun r => ∀ c : Dev nD,
      r.2.mem ((c : Thread nD τ).loc main_v0)
        = Cert.Layer.dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Reference.lean ====
/-
  The reference, read one host operation at a time, is the dense layer: its `dot_general` contracts the last axis
  of x against the last axis of W, so entry (r, n) of the product is Σ_k x[r, k] · W[n, k]; the two broadcasts put
  b[n] under every row; then the sum of the two and tanh, entry by entry.
-/
import proofs.«114087_j57492432224774_1_alg».proof.Proof.Gen.ReferenceIdeal.Read
import proofs.«114087_j57492432224774_1_alg».proof.Proof.Layer

noncomputable section

namespace Cert.ReferenceIdeal.Dense

open Cert.ReferenceIdeal Cert.ReferenceIdeal.Read Idealize.ShloMosaic Idealize.ShloMosaic.ValueIdx

/-- The product's left operand index at output entry i and contraction index k is (row of i, k). -/
theorem lidx_eq (i : S8192x4096.Idx) (k : Fin 1024) : lidx_main_v0 i k = ix2 (i 0) k :=
  funext fun a => Fin.ext (by match a with | ⟨0, _⟩ => rfl | ⟨1, _⟩ => rfl)

/-- Its right operand index is (column of i, k): W is contracted along its last axis too. -/
theorem ridx_eq (i : S8192x4096.Idx) (k : Fin 1024) : ridx_main_v0 i k = ix2 (i 1) k :=
  funext fun a => Fin.ext (by match a with | ⟨0, _⟩ => rfl | ⟨1, _⟩ => rfl)

/-- The bias, broadcast twice, is read at the column of i. -/
theorem bidx_eq (i : S8192x4096.Idx) : idx_main_v1 (idx_main_v2 i) = ix1 (i 1) :=
  funext fun a => Fin.ext (by match a with | ⟨0, _⟩ => rfl)

/-- The reference's last stage is the dense layer of its three arguments. -/
theorem val_eq_dense (x : (⟨S8192x1024, .f32⟩ : BufTy).Contents (Elt Ideal)) (W : (⟨S4096x1024, .f32⟩ : BufTy).Contents (Elt Ideal))
    (b : (⟨S4096, .f32⟩ : BufTy).Contents (Elt Ideal)) :
    val_main_v4 (F := Ideal) x W b = Cert.Layer.dense x W b := by
  funext i
  rw [val_main_v4_apply, val_main_v3_apply, val_main_v0_apply, val_main_v2_apply, val_main_v1_apply]
  simp only [lidx_eq, ridx_eq, bidx_eq, Ideal.hostUnary_tanh_def, Ideal.addf_def]
  rfl

end Cert.ReferenceIdeal.Dense

end
-- ==== Proof.lean ====
/-
  tanh (x · Wᵀ + b) over f32[8192, 1024] × f32[4096, 1024] × f32[4096]: a Pallas kernel tiled 8 × 8 (each point a
  [1024, 1024] × [512, 1024]ᵀ product on the matrix unit in bf16, the bias row added, tanh) against jnp's
  tanh (einsum 'sd,nd->sn' + b).

  Over the extended reals both programs compute ONE function of the three arrays, `Cert.Layer.dense`:
      out[r, n] = tanh ( Σ_k x[r, k] · W[n, k] + b[n] ).
  The change to bf16 is the identity there, the matrix unit's product into a zero accumulator is the plain sum over
  the contracted axis, and so is the host's `dot_general`; the kernel only tiles the rows of x and of W, and entry
  (r, n) reads nothing outside row r of x, row n of W and b n, so each tile is the restriction of the whole function
  (Proof/Tile.lean, Proof/Array.lean); the reference is that function operation by operation (Proof/Reference.lean).
  No sum is regrouped and nothing is distributed, so the finiteness of the inputs is never used.
  The three frames are the generated frame runs (the reference's is its run with the result dropped); the ideal pass
  rewrote nothing, so the idealization conjunct is `True`.
-/
import proofs.«114087_j57492432224774_1_alg».proof.Defs
import proofs.«114087_j57492432224774_1_alg».proof.Proof.Gen.Kernel
import proofs.«114087_j57492432224774_1_alg».proof.Proof.Gen.Kernel.Skeleton
import proofs.«114087_j57492432224774_1_alg».proof.Proof.Gen.Kernel.Launch
import proofs.«114087_j57492432224774_1_alg».proof.Proof.Gen.Kernel.Points
import proofs.«114087_j57492432224774_1_alg».proof.Proof.Gen.Kernel.Frame
import proofs.«114087_j57492432224774_1_alg».proof.Proof.Gen.KernelIdeal
import proofs.«114087_j57492432224774_1_alg».proof.Proof.Gen.KernelIdeal.Skeleton
import proofs.«114087_j57492432224774_1_alg».proof.Proof.Gen.KernelIdeal.Launch
import proofs.«114087_j57492432224774_1_alg».proof.Proof.Gen.KernelIdeal.Points
import proofs.«114087_j57492432224774_1_alg».proof.Proof.Gen.KernelIdeal.Frame
import proofs.«114087_j57492432224774_1_alg».proof.Proof.Gen.ReferenceIdeal
import proofs.«114087_j57492432224774_1_alg».proof.Proof.Gen.Pre_finite_inputs
import proofs.«114087_j57492432224774_1_alg».proof.Proof.Gen.KernelIdeal.Value
import proofs.«114087_j57492432224774_1_alg».proof.Proof.Gen.ReferenceIdeal.Run
import proofs.«114087_j57492432224774_1_alg».proof.Proof.Gen.ReferenceIdeal.Read
import proofs.«114087_j57492432224774_1_alg».proof.Proof.Array
import proofs.«114087_j57492432224774_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is five host operations; its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on x, W and b, both programs end with the dense layer of those three arrays. -/
theorem algebraic : Cert.algebraic_KernelIdeal_ReferenceIdeal := by
  intro m ρ m' ρ' _ hagree
  refine ⟨fun c => Cert.Layer.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Dense.val_eq_dense, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
